-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel
  bcast_S_S128x1024x64 : S_.BroadcastsInDim S128x1024x64 (![] : Fin 0 → Fin S128x1024x64.rank)
  reducesTo_S128x1024x64_S_d0_1_2 : S128x1024x64.ReducesTo [0, 1, 2] S_
  bcast_S_S128x1024x512 : S_.BroadcastsInDim S128x1024x512 (![] : Fin 0 → Fin S128x1024x512.rank)
  reducesTo_S128x1024x512_S_d0_1_2 : S128x1024x512.ReducesTo [0, 1, 2] S_

variable [Facts]

def fn_part1 {F : FTy → Type} [FloatOps F] (main_v13 : IVec S_ 1) (main_v16 : IVec S128x1024x512 1) : IVec S_ 1 :=
  let main_c_5 : IVec S_ 1 := constantI S_ 1 1#1
  let main_v17 : IVec S_ 1 := (fun x v => Host.reduce IntOp.andi x v reducesTo_S128x1024x512_S_d0_1_2 h_S_) main_v16 main_c_5
  let main_v18 : IVec S_ 1 := andi main_v13 main_v17
  main_v18

def fn {F : FTy → Type} [FloatOps F] (main_arg0 : FVec F S128x512x64 .f32) (main_arg1 : FVec F S128x1024x64 .f32) (main_arg2 : FVec F S128x1024x512 .f32) (main_arg3 : FVec F S128x1024x512 .f32) (main_arg4 : IVec S128x20x1 32) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x1024x64 .f32 := Host.absf main_arg1
  let main_cst_0 : FVec F S_ .f32 := constant S_ .f32 0x7F800000#32
  let main_v5 : FVec F S128x1024x64 .f32 := broadcastInDim S128x1024x64 ![] bcast_S_S128x1024x64 main_cst_0
  let main_v6 : IVec S128x1024x64 1 := cmpf .olt main_v4 main_v5
  let main_c_1 : IVec S_ 1 := constantI S_ 1 1#1
  let main_v7 : IVec S_ 1 := (fun x v => Host.reduce IntOp.andi x v reducesTo_S128x1024x64_S_d0_1_2 h_S_) main_v6 main_c_1
  let main_v8 : IVec S_ 1 := andi main_v3 main_v7
  let main_v9 : FVec F S128x1024x512 .f32 := Host.absf main_arg2
  let main_cst_2 : FVec F S_ .f32 := constant S_ .f32 0x7F800000#32
  let main_v10 : FVec F S128x1024x512 .f32 := broadcastInDim S128x1024x512 ![] bcast_S_S128x1024x512 main_cst_2
  let main_v11 : IVec S128x1024x512 1 := cmpf .olt main_v9 main_v10
  let main_c_3 : IVec S_ 1 := constantI S_ 1 1#1
  let main_v12 : IVec S_ 1 := (fun x v => Host.reduce IntOp.andi x v reducesTo_S128x1024x512_S_d0_1_2 h_S_) main_v11 main_c_3
  let main_v13 : IVec S_ 1 := andi main_v8 main_v12
  let main_v14 : FVec F S128x1024x512 .f32 := Host.absf main_arg3
  let main_cst_4 : FVec F S_ .f32 := constant S_ .f32 0x7F800000#32
  let main_v15 : FVec F S128x1024x512 .f32 := broadcastInDim S128x1024x512 ![] bcast_S_S128x1024x512 main_cst_4
  let main_v16 : IVec S128x1024x512 1 := cmpf .olt main_v14 main_v15
  fn_part1 (F := F) main_v13 main_v16
-- ==== Kernel.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S128x20 : Shape := ⟨2, ![128, 20]⟩
abbrev S1024 : Shape := ⟨1, ![1024]⟩
abbrev S1x1x1024 : Shape := ⟨3, ![1, 1, 1024]⟩
abbrev S128x20x1024 : Shape := ⟨3, ![128, 20, 1024]⟩
abbrev S_ : Shape := ⟨0, ![]⟩
abbrev S128x1024 : Shape := ⟨2, ![128, 1024]⟩
abbrev S1x1024 : Shape := ⟨2, ![1, 1024]⟩
abbrev S128x1 : Shape := ⟨2, ![128, 1]⟩
abbrev S8x128x512 : Shape := ⟨3, ![8, 128, 512]⟩
abbrev S8x128 : Shape := ⟨2, ![8, 128]⟩
abbrev S8x1 : Shape := ⟨2, ![8, 1]⟩
abbrev S8x128x1 : Shape := ⟨3, ![8, 128, 1]⟩
abbrev S8 : Shape := ⟨1, ![8]⟩
abbrev S128 : Shape := ⟨1, ![128]⟩

abbrev nBuf : Space → Nat
  | .hbm => 36
  | .vmem => 11
  | .smem => 0
  | _ => 0

abbrev bufTy : (tb : Table) → Fin (tcTables nBuf tb) → BufTy
  | .hbm, ⟨0, _⟩ => ⟨S128x512x64, .f32⟩
  | .hbm, ⟨1, _⟩ => ⟨S128x1024x64, .f32⟩
  | .hbm, ⟨2, _⟩ => ⟨S128x1024x512, .f32⟩
  | .hbm, ⟨3, _⟩ => ⟨S128x1024x512, .f32⟩
  | .hbm, ⟨4, _⟩ => ⟨S128x20x1, .i32⟩
  | .hbm, ⟨5, _⟩ => ⟨S128x20, .i32⟩
  | .hbm, ⟨6, _⟩ => ⟨S1024, .i32⟩
  | .hbm, ⟨7, _⟩ => ⟨S128x20x1, .i32⟩
  | .hbm, ⟨8, _⟩ => ⟨S1x1x1024, .i32⟩
  | .hbm, ⟨9, _⟩ => ⟨S128x20x1024, .i32⟩
  | .hbm, ⟨10, _⟩ => ⟨S128x20x1024, .i32⟩
  | .hbm, ⟨11, _⟩ => ⟨S128x20x1024, .i1⟩
  | .hbm, ⟨12, _⟩ => ⟨S_, .i1⟩
  | .hbm, ⟨13, _⟩ => ⟨S128x1024, .i1⟩
  | .hbm, ⟨14, _⟩ => ⟨S128x1024, .i32⟩
  | .hbm, ⟨15, _⟩ => ⟨S_, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S1x1024, .i1⟩
  | .hbm, ⟨25, _⟩ => ⟨S128x1024, .i1⟩
  | .hbm, ⟨26, _⟩ => ⟨S128x1024, .i1⟩
  | .hbm, ⟨27, _⟩ => ⟨S_, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1, .f32⟩
  | .hbm, ⟨34, _⟩ => ⟨S128x1024, .f32⟩
  | .hbm, ⟨35, _⟩ => ⟨S128, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128, .f32⟩
  | .local _ .vmem, ⟨5, _⟩ => ⟨S8x128, .f32⟩
  | .local _ .vmem, ⟨6, _⟩ => ⟨S8x1, .f32⟩
  | .local _ .vmem, ⟨7, _⟩ => ⟨S8x1, .f32⟩
  | .local _ .vmem, ⟨8, _⟩ => ⟨S8x128, .f32⟩
  | .local _ .vmem, ⟨9, _⟩ => ⟨S8x128, .f32⟩
  | .local _ .vmem, ⟨10, _⟩ => ⟨S8x1, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S128x20x1_S128x20 : S128x20x1.ShapeCasts S128x20
  bcast_S128x20_S128x20x1_0_1 : S128x20.BroadcastsInDim S128x20x1 (![0, 1] : Fin 2 → Fin S128x20x1.rank)
  bcast_S1024_S1x1x1024_2 : S1024.BroadcastsInDim S1x1x1024 (![2] : Fin 1 → Fin S1x1x1024.rank)
  bcast_S128x20x1_S128x20x1024_0_1_2 : S128x20x1.BroadcastsInDim S128x20x1024 (![0, 1, 2] : Fin 3 → Fin S128x20x1024.rank)
  bcast_S1x1x1024_S128x20x1024_0_1_2 : S1x1x1024.BroadcastsInDim S128x20x1024 (![0, 1, 2] : Fin 3 → Fin S128x20x1024.rank)
  reducesTo_S128x20x1024_S128x1024_d1 : S128x20x1024.ReducesTo [1] S128x1024
  h_S_ : 0 < S_.numel
  natLt_1_32 : 1 < 32
  reducesTo_S128x1024_S1024_d0 : S128x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x512_S8x128x512_0_0_0 : ∀ a, (![0, 0, 0] : Fin 3 → Nat) a + S8x128x512.size a ≤ S8x128x512.size a
  h_S8x128x512 : 0 < S8x128x512.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  broadcasts_S8x128x1_S8x128x512 : S8x128x1.Broadcasts S8x128x512
  reduces_S8x128x512_S8x128 : S8x128x512.Reduces [2] S8x128
  reduces_S8x128_S8 : S8x128.Reduces [1] S8
  shapeCasts_S8_S8x1 : S8.ShapeCasts S8x1
  shapeCasts_S128x1_S128 : S128x1.ShapeCasts S128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S128x1024x512.size a
  hwx0_0 : ∀ i : grid0.Coords, EltTy.bits .f32 = 32 ∨ (Rect.block (s := S128x1024x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S128x1024x512.size a
  hwx0_1 : ∀ i : grid0.Coords, EltTy.bits .f32 = 32 ∨ (Rect.block (s := S128x1024x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x1024.size a
  hwx0_2 : ∀ i : grid0.Coords, EltTy.bits .f32 = 32 ∨ (Rect.block (s := S128x1024) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S128x1.size a
  hwx0_3 : ∀ i : grid0.Coords, EltTy.bits .f32 = 32 ∨ (Rect.block (s := S128x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x1024.size a
  hwx0_4 : ∀ i : grid0.Coords, EltTy.bits .f32 = 32 ∨ (Rect.block (s := S128x1024) S8x128.size (cc0_transform_4 i) (hinb0_4 i)).WholeWords (EltTy.packing .f32)

variable [Facts₀]

abbrev win0_0 : Pipeline.Window sig grid0 :=
  Pipeline.Window.ofSpec (Memref.whole main_arg3) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S128x512x64 : Shape := ⟨3, ![128, 512, 64]⟩
abbrev S128x1024x64 : Shape := ⟨3, ![128, 1024, 64]⟩
abbrev S128x1024x512 : Shape := ⟨3, ![128, 1024, 512]⟩
abbrev S128x20x1 : Shape := ⟨3, ![128, 20, 1]⟩
abbrev S128x20 : Shape := ⟨2, ![128, 20]⟩
abbrev S1024 : Shape := ⟨1, ![1024]⟩
abbrev S1x1x1024 : Shape := ⟨3, ![1, 1, 1024]⟩
abbrev S128x20x1024 : Shape := ⟨3, ![128, 20, 1024]⟩
abbrev S_ : Shape := ⟨0, ![]⟩
abbrev S128x1024 : Shape := ⟨2, ![128, 1024]⟩
abbrev S1x1024 : Shape := ⟨2, ![1, 1024]⟩
abbrev S128x1024x1 : Shape := ⟨3, ![128, 1024, 1]⟩
abbrev S128 : Shape := ⟨1, ![128]⟩

abbrev nBuf : Space → Nat
  | .hbm => 61
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x1024x64, .f32⟩
  | .hbm, ⟨2, _⟩ => ⟨S128x1024x512, .f32⟩
  | .hbm, ⟨3, _⟩ => ⟨S128x1024x512, .f32⟩
  | .hbm, ⟨4, _⟩ => ⟨S128x20x1, .i32⟩
  | .hbm, ⟨5, _⟩ => ⟨S128x20, .i32⟩
  | .hbm, ⟨6, _⟩ => ⟨S128x20x1, .i32⟩
  | .hbm, ⟨7, _⟩ => ⟨S1024, .i32⟩
  | .hbm, ⟨8, _⟩ => ⟨S1x1x1024, .i32⟩
  | .hbm, ⟨9, _⟩ => ⟨S128x20x1024, .i32⟩
  | .hbm, ⟨10, _⟩ => ⟨S128x20x1024, .i32⟩
  | .hbm, ⟨11, _⟩ => ⟨S128x20x1024, .i1⟩
  | .hbm, ⟨12, _⟩ => ⟨S_, .i1⟩
  | .hbm, ⟨13, _⟩ => ⟨S128x1024, .i1⟩
  | .hbm, ⟨14, _⟩ => ⟨S128x1024, .i32⟩
  | .hbm, ⟨15, _⟩ => ⟨S_, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S1x1024, .i1⟩
  | .hbm, ⟨25, _⟩ => ⟨S128x1024, .i1⟩
  | .hbm, ⟨26, _⟩ => ⟨S128x1024, .i1⟩
  | .hbm, ⟨27, _⟩ => ⟨S128x1024x1, .i1⟩
  | .hbm, ⟨28, _⟩ => ⟨S_, .f32⟩
  | .hbm, ⟨29, _⟩ => ⟨S_, .f32⟩
  | .hbm, ⟨30, _⟩ => ⟨S128x1024x1, .f32⟩
  | .hbm, ⟨31, _⟩ => ⟨S128x1024x1, .f32⟩
  | .hbm, ⟨32, _⟩ => ⟨S128x1024x1, .f32⟩
  | .hbm, ⟨33, _⟩ => ⟨S128x1024x1, .f32⟩
  | .hbm, ⟨34, _⟩ => ⟨S128x1024x512, .f32⟩
  | .hbm, ⟨35, _⟩ => ⟨S128x1024x512, .f32⟩
  | .hbm, ⟨36, _⟩ => ⟨S128x1024x512, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128x1024x512, .f32⟩
  | .hbm, ⟨44, _⟩ => ⟨S128x1024x512, .i1⟩
  | .hbm, ⟨45, _⟩ => ⟨S_, .f32⟩
  | .hbm, ⟨46, _⟩ => ⟨S128x1024x512, .f32⟩
  | .hbm, ⟨47, _⟩ => ⟨S128x1024x512, .i1⟩
  | .hbm, ⟨48, _⟩ => ⟨S_, .f32⟩
  | .hbm, ⟨49, _⟩ => ⟨S_, .f32⟩
  | .hbm, ⟨50, _⟩ => ⟨S128x1024x512, .f32⟩
  | .hbm, ⟨51, _⟩ => ⟨S128x1024x512, .f32⟩
  | .hbm, ⟨52, _⟩ => ⟨S128x1024x512, .f32⟩
  | .hbm, ⟨53, _⟩ => ⟨S128x1024x512, .f32⟩
  | .hbm, ⟨54, _⟩ => ⟨S_, .f32⟩
  | .hbm, ⟨55, _⟩ => ⟨S_, .f32⟩
  | .hbm, ⟨56, _⟩ => ⟨S128x1024x512, .f32⟩
  | .hbm, ⟨57, _⟩ => ⟨S128x1024x512, .f32⟩
  | .hbm, ⟨58, _⟩ => ⟨S_, .f32⟩
  | .hbm, ⟨59, _⟩ => ⟨S128x1024, .f32⟩
  | .hbm, ⟨60, _⟩ => ⟨S128x1024, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  shapeCasts_S128x20x1_S128x20 : S128x20x1.ShapeCasts S128x20
  bcast_S128x20_S128x20x1_0_1 : S128x20.BroadcastsInDim S128x20x1 (![0, 1] : Fin 2 → Fin S128x20x1.rank)
  bcast_S1024_S1x1x1024_2 : S1024.BroadcastsInDim S1x1x1024 (![2] : Fin 1 → Fin S1x1x1024.rank)
  bcast_S128x20x1_S128x20x1024_0_1_2 : S128x20x1.BroadcastsInDim S128x20x1024 (![0, 1, 2] : Fin 3 → Fin S128x20x1024.rank)
  bcast_S1x1x1024_S128x20x1024_0_1_2 : S1x1x1024.BroadcastsInDim S128x20x1024 (![0, 1, 2] : Fin 3 → Fin S128x20x1024.rank)
  reducesTo_S128x20x1024_S128x1024_d1 : S128x20x1024.ReducesTo [1] S128x1024
  h_S_ : 0 < S_.numel
  natLt_1_32 : 1 < 32
  reducesTo_S128x1024_S1024_d0 : S128x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x512_0_1_2 : S128x1024x1.BroadcastsInDim S128x1024x512 (![0, 1, 2] : Fin 3 → Fin S128x1024x512.rank)
  reducesTo_S128x1024x512_S128_d1_2 : S128x1024x512.ReducesTo [1, 2] S128
  bcast_S_S128 : S_.BroadcastsInDim S128 (![] : Fin 0 → Fin S128.rank)
  bcast_S_S128x1024x512 : S_.BroadcastsInDim S128x1024x512 (![] : Fin 0 → Fin S128x1024x512.rank)
  reducesTo_S128x1024x512_S128x1024_d2 : S128x1024x512.ReducesTo [2] S128x1024

variable [Facts₀]

class Facts : Prop extends Facts₀ where

variable [Facts]
-- ==== Proof.Pieces.lean ====
import proofs.«163707_j17626545783502_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the kernel body leaves in the carried scratch row and in the two output blocks, as the
    body's pure payload terms of the blocks it loaded: the first point of a block of rows stores the zero row and
    accumulates onto it, a later point accumulates onto what the point before left, the last point also scales the
    accumulated row into the loss block; every point writes its entropy block. -/
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : cond0_0 i) (hc1 : ¬cond0_1 i) (x0 x1 : Vec F S8x128x512 .f32) (x2 : Vec F S8x128 .f32) :
    sout0_A_0 c i a2 h2 a3 h3 a4 h4 a5 h5 a6 h6 a7 h7 hc0 hc1 x0 x1 x2 = k0_pay3 x0 x2 (k0_pay2 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S8x1) hz2, View.readCov_unit_zero (S := S8x1) _ hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem sout_B (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : ¬cond0_0 i) (hc1 : ¬cond0_1 i) (x0 x1 : Vec F S8x128x512 .f32) (x2 : Vec F S8x128 .f32) (xs0 : Vec F S8x1 .f32) :
    sout0_B_0 c i a2 h2 a3 h3 a4 h4 a5 h5 a6 h6 a7 h7 hc0 hc1 x0 x1 x2 xs0 = k0_pay3 x0 x2 xs0 := by
  unfold sout0_B_0
  rw [View.read_writes_eq_canon _ _ _ (scover0_B_0 c i a2 h2 a3 h3 a4 h4 a5 h5 a6 h6 a7 h7 hc0 hc1 x0 x1 x2 xs0)]
  unfold kernelRun0_B
  dsimp only
  sl_unfold_words
  rw [View.canon_unit_zero hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem sout_C (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : ¬cond0_0 i) (hc1 : cond0_1 i) (x0 x1 : Vec F S8x128x512 .f32) (x2 : Vec F S8x128 .f32) (xs0 : Vec F S8x1 .f32) :
    sout0_C_0 c i a2 h2 a3 h3 a4 h4 a5 h5 a6 h6 a7 h7 hc0 hc1 x0 x1 x2 xs0 = k0_pay3 x0 x2 xs0 := by
  unfold sout0_C_0
  rw [View.read_writes_eq_canon _ _ _ (scover0_C_0 c i a2 h2 a3 h3 a4 h4 a5 h5 a6 h6 a7 h7 hc0 hc1 x0 x1 x2 xs0)]
  unfold kernelRun0_C
  dsimp only
  sl_unfold_words
  rw [View.canon_unit_zero hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem out4_A (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : cond0_0 i) (hc1 : ¬cond0_1 i) (x0 x1 : Vec F S8x128x512 .f32) (x2 : Vec F S8x128 .f32) :
    out0_A_4 c i a2 h2 a3 h3 a4 h4 a5 h5 a6 h6 a7 h7 hc0 hc1 x0 x1 x2 = k0_pay4 x1 := by
  unfold out0_A_4
  rw [View.read_writes_eq_canon _ _ _ (cover0_A_4 c i a2 h2 a3 h3 a4 h4 a5 h5 a6 h6 a7 h7 hc0 hc1 x0 x1 x2)]
  unfold kernelRun0_A
  dsimp only
  sl_unfold_words
  rw [View.canon_unit_zero hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem out4_B (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : ¬cond0_0 i) (hc1 : ¬cond0_1 i) (x0 x1 : Vec F S8x128x512 .f32) (x2 : Vec F S8x128 .f32) (xs0 : Vec F S8x1 .f32) :
    out0_B_4 c i a2 h2 a3 h3 a4 h4 a5 h5 a6 h6 a7 h7 hc0 hc1 x0 x1 x2 xs0 = k0_pay4 x1 := by
  unfold out0_B_4
  rw [View.read_writes_eq_canon _ _ _ (cover0_B_4 c i a2 h2 a3 h3 a4 h4 a5 h5 a6 h6 a7 h7 hc0 hc1 x0 x1 x2 xs0)]
  unfold kernelRun0_B
  dsimp only
  sl_unfold_words
  rw [View.canon_unit_zero hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem out4_C (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : ¬cond0_0 i) (hc1 : cond0_1 i) (x0 x1 : Vec F S8x128x512 .f32) (x2 : Vec F S8x128 .f32) (xs0 : Vec F S8x1 .f32) :
    out0_C_4 c i a2 h2 a3 h3 a4 h4 a5 h5 a6 h6 a7 h7 hc0 hc1 x0 x1 x2 xs0 = k0_pay4 x1 := by
  unfold out0_C_4
  rw [View.read_writes_eq_canon _ _ _ (cover0_C_4 c i a2 h2 a3 h3 a4 h4 a5 h5 a6 h6 a7 h7 hc0 hc1 x0 x1 x2 xs0)]
  unfold kernelRun0_C
  dsimp only
  sl_unfold_words
  rw [View.canon_unit_zero hz2]
  simp only [View.readAt_eq_ld, h2.read_unread, h3.read_unread, h4.read_unread, h7.read_unread,
    View.ld_unit_zero (S := S8x128x512) hz3, View.ld_unit_zero (S := S8x128) hz2, View.ld_unit_zero (S := S8x1) hz2]

theorem out3_C (c : Dev nD) (i : grid0.Coords) (a2 : Memref sig .tc .vmem S8x128x512 .f32) (h2 : a2.IsWhole) (a3 : Memref sig .tc .vmem S8x128x512 .f32) (h3 : a3.IsWhole) (a4 : Memref sig .tc .vmem S8x128 .f32) (h4 : a4.IsWhole) (a5 : Memref sig .tc .vmem S8x1 .f32) (h5 : a5.IsWhole) (a6 : Memref sig .tc .vmem S8x128 .f32) (h6 : a6.IsWhole) (a7 : Memref sig .tc .vmem S8x1 .f32) (h7 : a7.IsWhole) (hc0 : ¬cond0_0 i) (hc1 : cond0_1 i) (x0 x1 : Vec F S8x128x512 .f32) (x2 : Vec F S8x128 .f32) (xs0 : Vec F S8x1 .f32) :
    out0_C_3 c i a2 h2 a3 h3 a4 h4 a5 h5 a6 h6 a7 h7 hc0 hc1 x0 x1 x2 xs0 = k0_pay1 (k0_pay3 x0 x2 xs0) := by
  unfold out0_C_3
  rw [View.read_writes_eq_canon _ _ _ (cover0_C_3 c i a2 h2 a3 h3 a4 h4 a5 h5 a6 h6 a7 h7 hc0 hc1 x0 x1 x2 xs0)]
  unfold kernelRun0_C
  dsimp only
  sl_unfold_words
  rw [View.canon_unit_zero hz2]
  simp only [View.readCov_unit_zero (S := S8x1) _ hz2, View.readAt_eq_ld, h2.read_unread, h3.read_unread, h4.read_unread, h7.read_unread,
    View.ld_unit_zero (S := S8x128x512) hz3, View.ld_unit_zero (S := S8x128) hz2, View.ld_unit_zero (S := S8x1) hz2]

end Cert.KernelIdeal.Pieces

end
-- ==== Proof.PerPoint.lean ====
/-
  What the scratch row and the two output blocks hold after each grid point, as the body's payload terms of the point's
  three input blocks (logits tile, prior tile, target tile) and of what the point before left in the scratch row.
  The grid is 16 × 8: a point's position among the eight tiles of its block of rows is its linear index mod 8;
  position 0 resets the scratch row, position 7 also writes the loss block.
-/
import proofs.«163707_j17626545783502_1_alg».proof.Proof.Pieces

noncomputable section

open Idealize.ShloMosaic Idealize.ShloMosaic.TcCoe Idealize.SL.Sem
open Idealize.ShloMosaic.Pipeline (Dat)

namespace Cert.KernelIdeal.PerPoint

open Cert.KernelIdeal Cert.KernelIdeal.Gen

variable {F : FTy → Type} [FloatOps F]
variable (m : (ℓ : Loc nD τ sig) → Buf (Elt F) ℓ)

/-- The three input blocks at a point, and the scratch row as the point before left it. -/
abbrev lblk (c : Dev nD) (t : Fin cfg0.N) : Vec F S8x128x512 .f32 := iblk m c 0 t
abbrev pblk (c : Dev nD) (t : Fin cfg0.N) : Vec F S8x128x512 .f32 := iblk m c 1 t
abbrev tblk (c : Dev nD) (t : Fin cfg0.N) : Vec F S8x128 .f32 := iblk m c 2 t
abbrev prevAcc (c : Dev nD) (t : Fin cfg0.N) : Vec F S8x1 .f32 :=
  (outsAt0 m c (t.val - 1) (Nat.lt_of_le_of_lt (Nat.sub_le _ _) t.isLt)).2.2

/-- At a block's first tile the scratch row is reset and then accumulates the tile. -/
theorem scratch_A (c : Dev nD) (t : Fin cfg0.N) (h0 : t.val % 8 = 0) (h1 : ¬t.val % 8 = 7) :
    (outsAt0 m c t.val t.isLt).2.2 = k0_pay3 (lblk m c t) (tblk m c t) (k0_pay2 (F := F)) := by
  rw [outsAt0_A m c t h0 h1]
  dsimp only
  exact Pieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)

/-- At a middle tile it accumulates onto what the point before left. -/
theorem scratch_B (c : Dev nD) (t : Fin cfg0.N) (h0 : ¬t.val % 8 = 0) (h1 : ¬t.val % 8 = 7) :
    (outsAt0 m c t.val t.isLt).2.2 = k0_pay3 (lblk m c t) (tblk m c t) (prevAcc m c t) := by
  rw [outsAt0_B m c t h0 h1]
  dsimp only
  exact Pieces.sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (prevAcc m c t)

/-- At the last tile likewise. -/
theorem scratch_C (c : Dev nD) (t : Fin cfg0.N) (h0 : ¬t.val % 8 = 0) (h1 : t.val % 8 = 7) :
    (outsAt0 m c t.val t.isLt).2.2 = k0_pay3 (lblk m c t) (tblk m c t) (prevAcc m c t) := by
  rw [outsAt0_C m c t h0 h1]
  dsimp only
  exact Pieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prevAcc m c t)

/-- At the last tile the loss block is the scaled scratch row. -/
theorem loss_C (c : Dev nD) (t : Fin cfg0.N) (h0 : ¬t.val % 8 = 0) (h1 : t.val % 8 = 7) :
    (outsAt0 m c t.val t.isLt).1 = k0_pay1 (k0_pay3 (lblk m c t) (tblk m c t) (prevAcc m c t)) := by
  rw [outsAt0_C m c t h0 h1]
  dsimp only
  exact Pieces.out3_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prevAcc m c t)

/-- At every point the entropy block is the entropy payload of the prior tile. -/
theorem ent_any (c : Dev nD) (t : Fin cfg0.N) : (outsAt0 m c t.val t.isLt).2.1 = k0_pay4 (pblk m c t) := by
  by_cases h0 : t.val % 8 = 0
  · have h1 : ¬t.val % 8 = 7 := by omega
    rw [outsAt0_A m c t h0 h1]
    dsimp only
    exact Pieces.out4_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)
  · by_cases h1 : t.val % 8 = 7
    · rw [outsAt0_C m c t h0 h1]
      dsimp only
      exact Pieces.out4_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prevAcc m c t)
    · rw [outsAt0_B m c t h0 h1]
      dsimp only
      exact Pieces.out4_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (prevAcc m c t)

end Cert.KernelIdeal.PerPoint

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The two results as functions of the argument arrays, over the extended reals.

  loss b      = ( ∑ t < 1024, ∑ v < 512, (L b t v - tg b t)² ) · 2⁻¹⁹
  entropy b t = - ∑ v < 512, plogp (P b t v),   plogp p = p · log p where p > 0 and 0 elsewhere
  tg b t      = 1 where the mask bit is set, -1 elsewhere

  The kernel adds the squared deviations tile by tile: eight tiles of 128 positions t each, the running total kept
  in a scratch row per batch row. `accSpec` is that running total after a grid point, `accSpec_last` says that after
  the eighth tile it is the whole double sum (addition of extended reals is commutative and associative, so no
  finiteness is needed), and `half19` / `two19` read the two float constants: multiplying by 2⁻¹⁹ is dividing by 2¹⁹.
-/
import Idealize.ShloMosaic.PureOps.Ideal
import Idealize.ShloMosaic.PureOps.Ideal.Laws
import Idealize.ShloMosaic.Lib.ValueIdx
import proofs.«163707_j17626545783502_1_alg».proof.Proof.LibSumBlocks

noncomputable section

namespace Cert.Spec

open Idealize.ShloMosaic Idealize.ShloMosaic.ValueIdx

/-- logits and prior: [128, 1024, 512]; target and entropy: [128, 1024]; loss: [128]. -/
abbrev SL : Shape := ⟨3, ![128, 1024, 512]⟩
abbrev ST : Shape := ⟨2, ![128, 1024]⟩
abbrev SB : Shape := ⟨1, ![128]⟩

/-! ## The constants -/

/-- The pattern of `+0.0` denotes 0. -/
theorem zero32 : Ideal.ofBits .f32 0x00000000#32 = 0 := Ideal.ofBits_zero_f32

/-- `524288.0` = 2¹⁹, the number of (t, v) pairs, which the reference divides by. -/
theorem two19 : Ideal.ofBits .f32 0x49000000#32 = ((524288 : ℝ) : EReal) := by
  simp [Ideal.ofBits, Ideal.ieee, -EReal.coe_mul]; norm_num

/-- `1.9073486e-06` = 2⁻¹⁹ exactly, which the kernel multiplies by. -/
theorem half19 : Ideal.ofBits .f32 0x36000000#32 = ((1 / 524288 : ℝ) : EReal) := by
  simp [Ideal.ofBits, Ideal.ieee, -EReal.coe_mul]; norm_num

/-! ## The specification -/

/-- The target of position (b, t): 1 where the mask bit is set, -1 elsewhere. -/
def target (M : ST.Idx → BitVec 1) : ST.Idx → EReal :=
  fun j => Scalar.select (M j) (Ideal.ofBits .f32 0x3F800000#32) (Ideal.ofBits .f32 0xBF800000#32)

/-- The squared deviation of one logit from its position's target. -/
def sqdev (L : SL.Idx → EReal) (tg : ST.Idx → EReal) (b : Fin 128) (t : Fin 1024) (v : Fin 512) : EReal :=
  (L (ix3 b t v) - tg (ix2 b t)) * (L (ix3 b t v) - tg (ix2 b t))

/-- A batch row's total squared deviation. -/
def rowTotal (L : SL.Idx → EReal) (tg : ST.Idx → EReal) (b : Fin 128) : EReal :=
  ∑ t : Fin 1024, ∑ v : Fin 512, sqdev L tg b t v

/-- The loss: the mean squared deviation over the 2¹⁹ pairs (t, v). -/
def loss (L : SL.Idx → EReal) (tg : ST.Idx → EReal) : SB.Idx → EReal :=
  fun j => rowTotal L tg (j 0) * ((1 / 524288 : ℝ) : EReal)

/-- `p · log p` where `p > 0` (the logarithm taken of 1 elsewhere, so never of a non-positive number), 0 elsewhere. -/
def plogp (p : EReal) : EReal :=
  Scalar.select (Ideal.cmp .ogt p (Ideal.ofBits .f32 0x00000000#32))
    (p * Ideal.log (Scalar.select (Ideal.cmp .ogt p (Ideal.ofBits .f32 0x00000000#32)) p (Ideal.ofBits .f32 0x3F800000#32)))
    (Ideal.ofBits .f32 0x00000000#32)

/-- The categorical entropy of position (b, t). -/
def entropy (P : SL.Idx → EReal) : ST.Idx → EReal :=
  fun j => -(∑ v : Fin 512, plogp (P (ix3 (j 0) (j 1) v)))

/-! ## The running total over the tiles -/

/-- Position `r` of tile `k` along t (eight tiles of 128). -/
def colOf (k : ℕ) (r : Fin 128) : Fin 1024 := ⟨(128 * k + r.val) % 1024, Nat.mod_lt _ (by norm_num)⟩

/-- Batch row `b8` of the block of eight rows that grid point `n` works on (the grid is 16 × 8, the tile index fastest). -/
def rowOf (n : ℕ) (b8 : Fin 8) : Fin 128 := ⟨(8 * (n / 8) + b8.val) % 128, Nat.mod_lt _ (by norm_num)⟩

/-- One tile's contribution to a row's total. -/
def tileSum (L : SL.Idx → EReal) (tg : ST.Idx → EReal) (b : Fin 128) (k : ℕ) : EReal :=
  ∑ r : Fin 128, ∑ v : Fin 512, sqdev L tg b (colOf k r) v

/-- The running total of row `b8` after grid point `n`: the tiles 0 … n mod 8 of its block of rows. -/
def accSpec (L : SL.Idx → EReal) (tg : ST.Idx → EReal) (n : ℕ) (b8 : Fin 8) : EReal :=
  ∑ k ∈ Finset.range (n % 8 + 1), tileSum L tg (rowOf n b8) k

/-- At a block's first tile the total is that tile's sum. -/
theorem accSpec_first (L : SL.Idx → EReal) (tg : ST.Idx → EReal) (n : ℕ) (b8 : Fin 8) (h : n % 8 = 0) :
    accSpec L tg n b8 = tileSum L tg (rowOf n b8) 0 := by
  unfold accSpec; rw [h]; simp

/-- At a later tile it is the total after the point before plus this tile's sum. -/
theorem accSpec_next (L : SL.Idx → EReal) (tg : ST.Idx → EReal) (n : ℕ) (b8 : Fin 8) (h : ¬n % 8 = 0) :
    accSpec L tg n b8 = accSpec L tg (n - 1) b8 + tileSum L tg (rowOf n b8) (n % 8) := by
  have h1 : (n - 1) % 8 + 1 = n % 8 := by omega
  have h2 : rowOf (n - 1) b8 = rowOf n b8 := by
    unfold rowOf; congr 2; omega
  unfold accSpec
  rw [Finset.sum_range_succ, h1, h2]

/-- The eight tiles of 128 positions are the 1024 positions. -/
theorem sum_tiles {M : Type*} [AddCommMonoid M] (g : Fin 1024 → M) :
    ∑ k ∈ Finset.range 8, ∑ r : Fin 128, g (colOf k r) = ∑ t : Fin 1024, g t := by
  rw [← Fin.sum_univ_eq_sum_range (fun k => ∑ r : Fin 128, g (colOf k r)) 8]
  refine ((Fin.sum_rowMajor2 8 128 g).trans ?_).symm
  refine Finset.sum_congr rfl fun a _ => Finset.sum_congr rfl fun r _ => congrArg g (Fin.ext ?_)
  have := a.isLt; have := r.isLt
  show a.val * 128 + r.val = (128 * a.val + r.val) % 1024
  omega

/-- After a block's last tile the running total is the row's whole total. -/
theorem accSpec_last (L : SL.Idx → EReal) (tg : ST.Idx → EReal) (n : ℕ) (b8 : Fin 8) (h : n % 8 = 7) :
    accSpec L tg n b8 = rowTotal L tg (rowOf n b8) := by
  unfold accSpec rowTotal tileSum; rw [h]
  exact sum_tiles (fun t => ∑ v : Fin 512, sqdev L tg (rowOf n b8) t v)

/-- Dividing by 2¹⁹ is multiplying by 2⁻¹⁹, on every extended real. -/
theorem div_two19 (x : EReal) : Ideal.div x (Ideal.ofBits .f32 0x49000000#32) = x * ((1 / 524288 : ℝ) : EReal) := by
  rw [two19, Ideal.div_coe (by norm_num)]

end Cert.Spec

end
-- ==== Proof.Payload.lean ====
/-
  The kernel body's four payload terms read at an index, over the extended reals.

  * the reset row is zero;
  * the accumulated row at batch row b is what the scratch held plus ∑ r < 128, ∑ v < 512 (x b r v - tg b r)² of the
    loaded logits tile x and target tile tg (the lane sum over v, then the sum over the tile's 128 positions r);
  * the loss row is the accumulated row times 2⁻¹⁹;
  * the entropy tile at (b, r) is 0 - ∑ v < 512 plogp (p b r v), that is minus the sum.
-/
import proofs.«163707_j17626545783502_1_alg».proof.Proof.Gen.KernelIdeal.Skeleton
import proofs.«163707_j17626545783502_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

variable {α : Type}

/-! ## The layout operations of the body, read at an index -/

/-- A row of 8 cast to a column [8, 1]: entry (i, 0) is entry i. -/
theorem cast_8_8x1 (x : S8.Idx → α) (h : S8.ShapeCasts S8x1) (i : Fin 8) (z : Fin 1) :
    shapeCast S8x1 x h (ix2 i z) = x (ix1 i) :=
  shapeCast_apply x h _ _ (by
    have hz : z.val = 0 := by omega
    rw [Shape.rowMajor_val_two, Shape.rowMajor_val_one]
    show i.val = i.val * 1 + z.val
    omega)

/-- [8, 128] cast to [8, 128, 1]: entry (i, j, 0) is entry (i, j). -/
theorem cast_8x128_8x128x1 (x : S8x128.Idx → α) (h : S8x128.ShapeCasts S8x128x1) (i : Fin 8) (j : Fin 128) (z : Fin 1) :
    shapeCast S8x128x1 x h (ix3 i j z) = x (ix2 i j) :=
  shapeCast_apply x h _ _ (by
    have hz : z.val = 0 := by omega
    rw [Shape.rowMajor_val_three, Shape.rowMajor_val_two]
    show i.val * 128 + j.val = (i.val * 128 + j.val) * 1 + z.val
    omega)

/-- [8, 128, 1] broadcast along the last axis to [8, 128, 512]: entry (i, j, k) is entry (i, j, 0). -/
theorem bcast_8x128x1_8x128x512 (x : S8x128x1.Idx → α) (h : S8x128x1.Broadcasts S8x128x512) (i : Fin 8) (j : Fin 128) (k : Fin 512) :
    broadcastTo S8x128x512 x h (ix3 i j k) = x (ix3 i j (0 : Fin 1)) := by
  refine broadcastTo_apply x h (ix3 i j k) (ix3 i j (0 : Fin 1)) fun ax => ?_
  match ax with
  | ⟨0, _⟩ => show i.val = if (8 : Nat) = 1 then 0 else i.val; rw [if_neg (by decide)]
  | ⟨1, _⟩ => show j.val = if (128 : Nat) = 1 then 0 else j.val; rw [if_neg (by decide)]
  | ⟨2, _⟩ => show 0 = if (1 : Nat) = 1 then 0 else k.val; rw [if_pos rfl]

/-- The index the sum over the 128 positions of a tile reads at position r of row b. -/
theorem lift_row (h : S8x128.Reduces [1] S8) (b : Fin 8) (r : Fin 128) : h.lift (ix1 b) r = ix2 b r :=
  funext fun a => Fin.ext (by match a with | ⟨0, _⟩ => rfl | ⟨1, _⟩ => rfl)

/-- The index the lane sum reads at lane v of position (b, r). -/
theorem lift_lane (h : S8x128x512.Reduces [2] S8x128) (b : Fin 8) (r : Fin 128) (v : Fin 512) :
    h.lift (ix2 b r) v = ix3 b r v :=
  funext fun a => Fin.ext (by match a with | ⟨0, _⟩ => rfl | ⟨1, _⟩ => rfl | ⟨2, _⟩ => rfl)

/-- The body's lane sum (over the 512 lanes of a position) as a sum over the lane. -/
theorem laneSum (src : FVec Ideal S8x128x512 .f32) (h : S8x128x512.Reduces [2] S8x128) (hφ : FKind.Formats .f32)
    (hacc : (0x00000000#32 : BitVec 32) = 0x00000000#32) (b : Fin 8) (r : Fin 128) :
    multiReduction .add [2] S8x128 src 0x00000000#32 h hφ hacc (ix2 b r) = ∑ v : Fin 512, src (ix3 b r v) :=
  (Ideal.multiReduction_add_single src 0x00000000#32 h hφ hacc (ix2 b r)).trans
    (Finset.sum_congr rfl fun v _ => congrArg src (lift_lane h b r v))

/-- The body's sum over the 128 positions of a tile as a sum over the position. -/
theorem posSum (src : FVec Ideal S8x128 .f32) (h : S8x128.Reduces [1] S8) (hφ : FKind.Formats .f32)
    (hacc : (0x00000000#32 : BitVec 32) = 0x00000000#32) (b : Fin 8) :
    multiReduction .add [1] S8 src 0x00000000#32 h hφ hacc (ix1 b) = ∑ r : Fin 128, src (ix2 b r) :=
  (Ideal.multiReduction_add_single src 0x00000000#32 h hφ hacc (ix1 b)).trans
    (Finset.sum_congr rfl fun r _ => congrArg src (lift_row h b r))

/-! ## The payloads -/

/-- The reset row is zero. -/
theorem pay2_apply (b : Fin 8) (z : Fin 1) : (k0_pay2 (F := Ideal)) (ix2 b z) = 0 := by
  unfold k0_pay2
  rw [shapeCast_self]
  exact Cert.Spec.zero32

/-- The loss row: the accumulated row times 2⁻¹⁹. -/
theorem pay1_apply (acc : FVec Ideal S8x1 .f32) (b : Fin 8) (z : Fin 1) :
    k0_pay1 (F := Ideal) acc (ix2 b z) = acc (ix2 b z) * ((1 / 524288 : ℝ) : EReal) := by
  unfold k0_pay1
  rw [mulf_apply, broadcast_apply]
  exact congrArg (acc (ix2 b z) * ·) Cert.Spec.half19

/-- The accumulated row: what the scratch held plus the tile's squared deviations summed over lanes and positions. -/
theorem pay3_apply (x : FVec Ideal S8x128x512 .f32) (tg : FVec Ideal S8x128 .f32) (acc : FVec Ideal S8x1 .f32) (b : Fin 8) (z : Fin 1) :
    k0_pay3 (F := Ideal) x tg acc (ix2 b z)
      = acc (ix2 b z) + ∑ r : Fin 128, ∑ v : Fin 512, (x (ix3 b r v) - tg (ix2 b r)) * (x (ix3 b r v) - tg (ix2 b r)) := by
  unfold k0_pay3
  rw [shapeCast_self, addf_apply, cast_8_8x1]
  refine congrArg (acc (ix2 b z) + ·) ((posSum _ _ _ _ b).trans (Finset.sum_congr rfl fun r _ => ?_))
  refine (laneSum _ _ _ _ b r).trans (Finset.sum_congr rfl fun v _ => ?_)
  rw [mulf_apply, subf_apply, bcast_8x128x1_8x128x512, cast_8x128_8x128x1, shapeCast_self]

/-- The entropy tile: zero minus the lane sum of p · log p, that is minus the sum. -/
theorem pay4_apply (p : FVec Ideal S8x128x512 .f32) (b : Fin 8) (r : Fin 128) :
    k0_pay4 (F := Ideal) p (ix2 b r) = -(∑ v : Fin 512, Cert.Spec.plogp (p (ix3 b r v))) := by
  unfold k0_pay4
  rw [subf_apply, broadcast_apply]
  refine (congrArg (Ideal.ofBits .f32 0x00000000#32 - ·) (laneSum _ _ _ _ b r)).trans ?_
  rw [Cert.Spec.zero32, zero_sub]
  exact congrArg (-·) (Finset.sum_congr rfl fun v _ => rfl)

end Cert.KernelIdeal.Payload

end
-- ==== Proof.KernelValue.lean ====
/-
  The kernel's two result arrays as functions of the argument arrays, at the extended reals.

  A grid point t = 8·i + k works on batch rows 8i … 8i+7 and on positions 128k … 128k+127: its logits, prior and target
  blocks are those rows and positions of the arrays. By induction on the point the scratch row after point t holds,
  for each of its eight rows, the squared deviations of tiles 0 … k summed; the last tile's point (k = 7) writes that
  total times 2⁻¹⁹ into the loss array's rows 8i … 8i+7, and every point writes its 8 × 128 entropies. The blocks written
  tile the two arrays, so each array ends holding the specification.
-/
import proofs.«163707_j17626545783502_1_alg».proof.Proof.PerPoint
import proofs.«163707_j17626545783502_1_alg».proof.Proof.Payload
import proofs.«163707_j17626545783502_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.PerPoint

variable (m : (ℓ : Loc nD τ sig) → Buf (Elt Ideal) ℓ) (ρ : Dev nD → PrngReg)

/-- The logits, the prior and the target array as the region finds them. -/
abbrev Larr (c : Dev nD) : FVec Ideal S128x1024x512 .f32 := V m c main_arg3
abbrev Parr (c : Dev nD) : FVec Ideal S128x1024x512 .f32 := V m c main_arg2
abbrev Tarr (c : Dev nD) : FVec Ideal S128x1024 .f32 := V m c main_v19

theorem lt128 (t : Fin cfg0.N) : t.val < 128 := lt_of_lt_of_eq t.isLt N_0

/-! ## Which block a point reads and writes -/

/-- Point t = 8·i + k reads block (i, k, 0) of the logits and of the prior, -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
/-- block (i, k) of the target, -/
theorem idx2 : ∀ t : Fin cfg0.N, win0_2.index t (0 : Fin 2) = t.val / 8 ∧ win0_2.index t (1 : Fin 2) = t.val % 8 :=
  (by decide +kernel : ∀ t : Fin grid0.N, _)
/-- and writes block (i, 0) of the loss column and block (i, k) of the entropy. -/
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = t.val % 8 :=
  (by decide +kernel : ∀ t : Fin grid0.N, _)

/-! ## A window's block read through the array, for any contents of the array -/

/-- Window 0's block at point t = 8·i + k, entry (b, r, v), of any array A: batch row 8i + b, position 128k + r, lane v. -/
theorem read_blk0 (A : FVec Ideal S128x1024x512 .f32) (t : Fin cfg0.N) (b : Fin 8) (r : Fin 128) (v : Fin 512) :
    ((cfg0.win 0).blk t).view.read (Elt Ideal) A (ix3 b r v)
      = A (ix3 (Cert.Spec.rowOf t.val b) (Cert.Spec.colOf (t.val % 8) r) v) := by
  obtain ⟨h0, h1, h2⟩ := idx0 t
  have hN := lt128 t
  rw [View.read_apply]
  refine congrArg A (funext fun a => Fin.ext ?_)
  match a with
  | ⟨0, _⟩ =>
    show win0_0.index t 0 * 8 + 1 * b.val = (8 * (t.val / 8) + b.val) % 128
    rw [h0]; have := b.isLt; omega
  | ⟨1, _⟩ =>
    show win0_0.index t 1 * 128 + 1 * r.val = (128 * (t.val % 8) + r.val) % 1024
    rw [h1]; have := r.isLt; omega
  | ⟨2, _⟩ =>
    show win0_0.index t 2 * 512 + 1 * v.val = v.val
    rw [h2]; omega

/-- Window 1's block likewise. -/
theorem read_blk1 (A : FVec Ideal S128x1024x512 .f32) (t : Fin cfg0.N) (b : Fin 8) (r : Fin 128) (v : Fin 512) :
    ((cfg0.win 1).blk t).view.read (Elt Ideal) A (ix3 b r v)
      = A (ix3 (Cert.Spec.rowOf t.val b) (Cert.Spec.colOf (t.val % 8) r) v) := by
  obtain ⟨h0, h1, h2⟩ := idx1 t
  have hN := lt128 t
  rw [View.read_apply]
  refine congrArg A (funext fun a => Fin.ext ?_)
  match a with
  | ⟨0, _⟩ =>
    show win0_1.index t 0 * 8 + 1 * b.val = (8 * (t.val / 8) + b.val) % 128
    rw [h0]; have := b.isLt; omega
  | ⟨1, _⟩ =>
    show win0_1.index t 1 * 128 + 1 * r.val = (128 * (t.val % 8) + r.val) % 1024
    rw [h1]; have := r.isLt; omega
  | ⟨2, _⟩ =>
    show win0_1.index t 2 * 512 + 1 * v.val = v.val
    rw [h2]; omega

/-- Window 2's block at point t, entry (b, r), of any array A: batch row 8i + b, position 128k + r. -/
theorem read_blk2 (A : FVec Ideal S128x1024 .f32) (t : Fin cfg0.N) (b : Fin 8) (r : Fin 128) :
    ((cfg0.win 2).blk t).view.read (Elt Ideal) A (ix2 b r)
      = A (ix2 (Cert.Spec.rowOf t.val b) (Cert.Spec.colOf (t.val % 8) r)) := by
  obtain ⟨h0, h1⟩ := idx2 t
  have hN := lt128 t
  rw [View.read_apply]
  refine congrArg A (funext fun a => Fin.ext ?_)
  match a with
  | ⟨0, _⟩ =>
    show win0_2.index t 0 * 8 + 1 * b.val = (8 * (t.val / 8) + b.val) % 128
    rw [h0]; have := b.isLt; omega
  | ⟨1, _⟩ =>
    show win0_2.index t 1 * 128 + 1 * r.val = (128 * (t.val % 8) + r.val) % 1024
    rw [h1]; have := r.isLt; omega

/-- The logits, prior and target blocks a point loads. -/
theorem lblk_apply (c : Dev nD) (t : Fin cfg0.N) (b : Fin 8) (r : Fin 128) (v : Fin 512) :
    lblk m c t (ix3 b r v) = Larr m c (ix3 (Cert.Spec.rowOf t.val b) (Cert.Spec.colOf (t.val % 8) r) v) :=
  read_blk0 (Larr m c) t b r v
theorem pblk_apply (c : Dev nD) (t : Fin cfg0.N) (b : Fin 8) (r : Fin 128) (v : Fin 512) :
    pblk m c t (ix3 b r v) = Parr m c (ix3 (Cert.Spec.rowOf t.val b) (Cert.Spec.colOf (t.val % 8) r) v) :=
  read_blk1 (Parr m c) t b r v
theorem tblk_apply (c : Dev nD) (t : Fin cfg0.N) (b : Fin 8) (r : Fin 128) :
    tblk m c t (ix2 b r) = Tarr m c (ix2 (Cert.Spec.rowOf t.val b) (Cert.Spec.colOf (t.val % 8) r)) :=
  read_blk2 (Tarr m c) t b r

/-- Window 3's block (a column of eight loss rows) at point t, entry (b, 0), of any array A: batch row 8i + b. -/
theorem read_blk3 (A : FVec Ideal S128x1 .f32) (t : Fin cfg0.N) (b : Fin 8) (z : Fin 1) :
    ((cfg0.win 3).blk t).view.read (Elt Ideal) A (ix2 b z) = A (ix2 (Cert.Spec.rowOf t.val b) z) := by
  obtain ⟨h0, h1⟩ := idx3 t
  have hN := lt128 t
  rw [View.read_apply]
  refine congrArg A (funext fun a => Fin.ext ?_)
  match a with
  | ⟨0, _⟩ =>
    show win0_3.index t 0 * 8 + 1 * b.val = (8 * (t.val / 8) + b.val) % 128
    rw [h0]; have := b.isLt; omega
  | ⟨1, _⟩ =>
    show win0_3.index t 1 * 1 + 1 * z.val = z.val
    rw [h1]; omega

/-- Window 4's block (8 × 128 entropies) at point t, entry (b, r), of any array A. -/
theorem read_blk4 (A : FVec Ideal S128x1024 .f32) (t : Fin cfg0.N) (b : Fin 8) (r : Fin 128) :
    ((cfg0.win 4).blk t).view.read (Elt Ideal) A (ix2 b r)
      = A (ix2 (Cert.Spec.rowOf t.val b) (Cert.Spec.colOf (t.val % 8) r)) := by
  obtain ⟨h0, h1⟩ := idx4 t
  have hN := lt128 t
  rw [View.read_apply]
  refine congrArg A (funext fun a => Fin.ext ?_)
  match a with
  | ⟨0, _⟩ =>
    show win0_4.index t 0 * 8 + 1 * b.val = (8 * (t.val / 8) + b.val) % 128
    rw [h0]; have := b.isLt; omega
  | ⟨1, _⟩ =>
    show win0_4.index t 1 * 128 + 1 * r.val = (128 * (t.val % 8) + r.val) % 1024
    rw [h1]; have := r.isLt; omega

/-! ## The scratch row after each point -/

/-- The squared deviations a point sums are those of its tile of the arrays. -/
theorem tile_eq (c : Dev nD) (t : Fin cfg0.N) (b : Fin 8) :
    (∑ r : Fin 128, ∑ v : Fin 512, (lblk m c t (ix3 b r v) - tblk m c t (ix2 b r)) * (lblk m c t (ix3 b r v) - tblk m c t (ix2 b r)))
      = Cert.Spec.tileSum (Larr m c) (Tarr m c) (Cert.Spec.rowOf t.val b) (t.val % 8) := by
  unfold Cert.Spec.tileSum Cert.Spec.sqdev
  refine Finset.sum_congr rfl fun r _ => Finset.sum_congr rfl fun v _ => ?_
  rw [lblk_apply, tblk_apply]

/-- One point: if the scratch row held the running total of the point before (at a block's first tile it is reset),
    it holds this point's running total afterwards. -/
theorem acc_step (c : Dev nD) (t : Fin cfg0.N) (b : Fin 8) (z : Fin 1)
    (hprev : ¬t.val % 8 = 0 → prevAcc m c t (ix2 b z) = Cert.Spec.accSpec (Larr m c) (Tarr m c) (t.val - 1) b) :
    (outsAt0 m c t.val t.isLt).2.2 (ix2 b z) = Cert.Spec.accSpec (Larr m c) (Tarr m c) t.val b := by
  by_cases h0 : t.val % 8 = 0
  · have h1 : ¬t.val % 8 = 7 := by omega
    rw [scratch_A m c t h0 h1]
    refine (Payload.pay3_apply (lblk m c t) (tblk m c t) (k0_pay2 (F := Ideal)) b z).trans ?_
    rw [Payload.pay2_apply, zero_add, tile_eq, Cert.Spec.accSpec_first _ _ _ _ h0, h0]
  · have e : (outsAt0 m c t.val t.isLt).2.2 = k0_pay3 (lblk m c t) (tblk m c t) (prevAcc m c t) := by
      by_cases h1 : t.val % 8 = 7
      · exact scratch_C m c t h0 h1
      · exact scratch_B m c t h0 h1
    rw [e]
    refine (Payload.pay3_apply (lblk m c t) (tblk m c t) (prevAcc m c t) b z).trans ?_
    rw [hprev h0, tile_eq, Cert.Spec.accSpec_next _ _ _ _ h0]

/-- By induction on the point: the scratch row after point n holds the running totals of its block of rows. -/
theorem acc_eq (c : Dev nD) : ∀ (n : ℕ) (h : n < cfg0.N) (b : Fin 8) (z : Fin 1),
    (outsAt0 m c n h).2.2 (ix2 b z) = Cert.Spec.accSpec (Larr m c) (Tarr m c) n b := by
  intro n
  induction n with
  | zero => intro h b z; exact acc_step m c ⟨0, h⟩ b z (fun h0 => absurd (Nat.zero_mod 8) h0)
  | succ n ih => intro h b z; exact acc_step m c ⟨n + 1, h⟩ b z (fun _ => ih (Nat.lt_of_succ_lt h) b z)

/-! ## What the two output arrays end holding -/

/-- The loss as a column [128, 1] (the pallas_call's own result, before the host reshapes it) and the entropy array. -/
abbrev lossCol (c : Dev nD) : FVec Ideal S128x1 .f32 := fun i => Cert.Spec.loss (Larr m c) (Tarr m c) (ix1 (i 0))
abbrev entArr (c : Dev nD) : FVec Ideal S128x1024 .f32 := Cert.Spec.entropy (Parr m c)

/-- A point that writes the loss block back (the last tile of a block of rows) writes the specification's eight rows:
    the scratch row then holds the rows' whole totals, and the body scales them by 2⁻¹⁹. -/
theorem flushed3_eq (c : Dev nD) (t : Fin cfg0.N) (hf : (cfg0.win 3).flush t = true) :
    (dats m 0 c).flushed 3 t = ((cfg0.win 3).blk t).view.read (Elt Ideal) (lossCol m c) := by
  have h1 : t.val % 8 = 7 := (flush0_3 t).mp hf
  have h0 : ¬t.val % 8 = 0 := by omega
  show (cfg0.win 3).cut (grid0.coords t) ((dats m 0 c).after 3 t) = _
  rw [after0_3, loss_C m c t h0 h1, ← scratch_C m c t h0 h1]
  have key : ∀ y : S8x1.Idx, k0_pay1 (F := Ideal) ((outsAt0 m c t.val t.isLt).2.2) y
      = ((cfg0.win 3).blk t).view.read (Elt Ideal) (lossCol m c) y := by
    intro y
    obtain ⟨b, z, rfl⟩ : ∃ (b : Fin 8) (z : Fin 1), y = ix2 b z := ⟨y 0, y 1, eq_ix2 y⟩
    rw [read_blk3]
    refine (Payload.pay1_apply _ b z).trans ?_
    rw [acc_eq, Cert.Spec.accSpec_last _ _ _ _ h1]
    rfl
  exact funext key

/-- Every point writes the specification's 8 × 128 entropies of its rows and positions. -/
theorem flushed4_eq (c : Dev nD) (t : Fin cfg0.N) :
    (dats m 0 c).flushed 4 t = ((cfg0.win 4).blk t).view.read (Elt Ideal) (entArr m c) := by
  show (cfg0.win 4).cut (grid0.coords t) ((dats m 0 c).after 4 t) = _
  rw [after0_4, ent_any]
  have key : ∀ y : S8x128.Idx, k0_pay4 (F := Ideal) (pblk m c t) y
      = ((cfg0.win 4).blk t).view.read (Elt Ideal) (entArr m c) y := by
    intro y
    obtain ⟨b, r, rfl⟩ : ∃ (b : Fin 8) (r : Fin 128), y = ix2 b r := ⟨y 0, y 1, eq_ix2 y⟩
    rw [read_blk4]
    refine (Payload.pay4_apply (pblk m c t) b r).trans ?_
    show _ = -(∑ v : Fin 512, Cert.Spec.plogp (Parr m c (ix3 (Cert.Spec.rowOf t.val b) (Cert.Spec.colOf (t.val % 8) r) v)))
    exact congrArg (fun s => -s) (Finset.sum_congr rfl fun v _ => by rw [pblk_apply])
  exact funext key

/-- An index of the loss column is in point t's block iff its row is among the block's eight rows. -/
theorem mem_blk3 (t : Fin cfg0.N) (i : S128x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v20_0).slice (win0_3.rect t)).set ↔ _
  rw [View.set_slice_whole, Rect.mem_set_unit]
  exact Iff.rfl

/-- An index of the entropy array is in point t's block iff row and position are in the block's ranges. -/
theorem mem_blk4 (t : Fin cfg0.N) (i : S128x1024.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v20_1).slice (win0_4.rect t)).set ↔ _
  rw [View.set_slice_whole, Rect.mem_set_unit]
  exact Iff.rfl

/-- Row i of the loss column is written by the last tile's point of its block of rows. -/
theorem cover3 (i : S128x1.Idx) : ∃ t : Fin cfg0.N, (cfg0.win 3).flush t = true ∧ i ∈ ((cfg0.win 3).blk t).view.set := by
  have hi0 : (i 0).val < 128 := (i 0).isLt
  have hi1 : (i 1).val < 1 := (i 1).isLt
  let t : Fin cfg0.N := ⟨8 * ((i 0).val / 8) + 7, lt_of_lt_of_eq (by omega) N_0.symm⟩
  have tv : t.val = 8 * ((i 0).val / 8) + 7 := rfl
  obtain ⟨e0, e1⟩ := idx3 t
  refine ⟨t, (flush0_3 t).mpr (by omega), ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1 ≤ (i 1).val ∧ (i 1).val < win0_3.index t (1 : Fin 2) * 1 + 1; omega

/-- Entry (b, p) of the entropy array is written by the point of b's block of rows and p's tile. -/
theorem cover4 (i : S128x1024.Idx) : ∃ t : Fin cfg0.N, (cfg0.win 4).flush t = true ∧ i ∈ ((cfg0.win 4).blk t).view.set := by
  have hi0 : (i 0).val < 128 := (i 0).isLt
  have hi1 : (i 1).val < 1024 := (i 1).isLt
  let t : Fin cfg0.N := ⟨8 * ((i 0).val / 8) + (i 1).val / 128, lt_of_lt_of_eq (by omega) N_0.symm⟩
  have tv : t.val = 8 * ((i 0).val / 8) + (i 1).val / 128 := rfl
  obtain ⟨e0, e1⟩ := idx4 t
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- So the two arrays end holding the specification. -/
theorem final3 (c : Dev nD) : (dats m 0 c).arrAt 3 cfg0.N = lossCol m c :=
  (dats m 0 c).arrAt_eq_of_cover 3 (lossCol m c) (flushed3_eq m c) cover3
theorem final4 (c : Dev nD) : (dats m 0 c).arrAt 4 cfg0.N = entArr m c :=
  (dats m 0 c).arrAt_eq_of_cover 4 (entArr m c) (fun t _ => flushed4_eq m c t) cover4

/-! ## The host's reshape after the pallas_call, and the run -/

/-- The program's first result is the loss column reshaped to [128]: entry b is the column's row b. -/
theorem tail_eq (c : Dev nD) :
    Pipeline.afterTail₀ cfgs (dats m) 0 (V0 m) [hostOps1] c main_v21 = Cert.Spec.loss (Larr m c) (Tarr m c) := by
  unfold Pipeline.afterTail₀
  show StableHlo.after hostOps1 _ (Proc.devRef .tc main_v21) = _
  after_results
  have ew : Pipeline.withArrays (cfgs 0).spec c (V0 m c) (fun w => (dats m 0 c).arrAt w (cfgs 0).N) (Proc.tc.devRef main_v20_0)
      = lossCol m c :=
    (Pipeline.withArrays_arr spec0 launch0.win.arr_inj c _ _ 3).trans (final3 m c)
  funext j
  obtain ⟨b, rfl⟩ : ∃ b : Fin 128, j = ix1 b := ⟨j 0, eq_ix1 j⟩
  show shapeCast S128 (Pipeline.withArrays (cfgs 0).spec c (V0 m c) (fun w => (dats m 0 c).arrAt w (cfgs 0).N)
      (Proc.tc.devRef main_v20_0)) shapeCasts_S128x1_S128 (ix1 b) = _
  rw [ew]
  refine (shapeCast_apply (lossCol m c) shapeCasts_S128x1_S128 (ix1 b) (ix2 b (0 : Fin 1)) ?_).trans rfl
  rw [Shape.rowMajor_val_two, Shape.rowMajor_val_one]
  show b.val * 1 + 0 = b.val
  omega

/-- The run, read: the two results at the specification of the arrays as the pallas_call finds them, the five
    arguments unchanged. -/
theorem run : θ_run defs (onTc (τ := τ) (main (F := Ideal))) ⟨m, fun _ => 0, ρ⟩ fun r => ∀ c : Dev nD,
      r.2.mem ((c.tc : Thread nD τ).loc main_v21) = Cert.Spec.loss (Larr m c) (Tarr m c)
      ∧ r.2.mem ((c.tc : Thread nD τ).loc main_v20_1) = Cert.Spec.entropy (Parr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v21 (Pipeline.mem_restRefs_of main_v21 (by decide) (by decide))).trans (tail_eq m c),
      ((h c).1 4).trans (final4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 0).trans (((dats m 0 c).arrAt_in 0 rfl _).trans ((A_eq m c 0).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.Mask.lean ====
/-
  The mask of the target, as both programs compute it from the index array g : i32[128, 20, 1]:

    present b t  ⇔  position t is one of the 20 indices of batch row b      (compare against iota, or-reduce over the 20)
    count t      =  the number of batch rows b with present b t             (widen to i32, add-reduce over the 128 rows)
    valid t      ⇔  0 < count t < 128                                       (the position occurs in some row but not in all)
    mask b t     ⇔  present b t ∧ valid t

  written with the host operations of the reference program, over its shapes.
-/
import proofs.«163707_j17626545783502_1_alg».proof.ReferenceIdeal
import proofs.«163707_j17626545783502_1_alg».proof.Proof.Gen.ReferenceIdeal

noncomputable section

namespace Cert.Mask

open Idealize.ShloMosaic Cert.ReferenceIdeal
open Cert.ReferenceIdeal.Facts₀

/-- Position t occurs among the indices of batch row b. -/
def present (g : IVec S128x20x1 32) : IVec S128x1024 1 :=
  Host.reduce IntOp.ori
    (cmpi .eq
      (broadcastInDim S128x20x1024 ![0, 1, 2] bcast_S128x20x1_S128x20x1024_0_1_2
        (broadcastInDim S128x20x1 ![0, 1] bcast_S128x20_S128x20x1_0_1 (shapeCast _ g shapeCasts_S128x20x1_S128x20)))
      (broadcastInDim S128x20x1024 ![0, 1, 2] bcast_S1x1x1024_S128x20x1024_0_1_2
        (broadcastInDim S1x1x1024 ![2] bcast_S1024_S1x1x1024_2 (iotaInDim S1024 32 0))))
    (constantI S_ 1 0#1) reducesTo_S128x20x1024_S128x1024_d1 h_S_

/-- In how many batch rows position t occurs. -/
def count (g : IVec S128x20x1 32) : IVec S1024 32 :=
  Host.reduce IntOp.addi (extui 32 (present g) natLt_1_32) (constantI S_ 32 0#32) reducesTo_S128x1024_S1024_d0 h_S_

/-- Position t occurs in some batch row and not in all 128. -/
def valid (g : IVec S128x20x1 32) : IVec S1024 1 :=
  andi (cmpi .sgt (count g) (broadcastInDim S1024 ![] bcast_S_S1024 (constantI S_ 32 0#32)))
    (cmpi .slt (count g) (broadcastInDim S1024 ![] bcast_S_S1024 (constantI S_ 32 128#32)))

/-- The mask: present and valid. -/
def maskOf (g : IVec S128x20x1 32) : IVec S128x1024 1 :=
  andi (present g)
    (broadcastInDim S128x1024 ![0, 1] bcast_S1x1024_S128x1024_0_1 (broadcastInDim S1x1024 ![1] bcast_S1024_S1x1024_1 (valid g)))

end Cert.Mask

end
-- ==== Proof.Target.lean ====
/-
  The kernel program's target array is the specification's target at the mask the program computes.

  Before its region the kernel program builds the target on the host exactly as the reference does: the mask of
  (b, t) from the index array, then 1 where the mask bit is set and -1 elsewhere, the two constants being scalar
  words spread over [128, 1024]. The mask's operations are those of `Cert.Mask.maskOf` in the same order, so the
  whole array is the selection between the two spread words at that mask; read at (b, t), a spread word is the
  word itself, and the selection is the specification's target.
-/
import proofs.«163707_j17626545783502_1_alg».proof.Proof.Gen.KernelIdeal.Frame.Runs
import proofs.«163707_j17626545783502_1_alg».proof.Proof.Spec
import proofs.«163707_j17626545783502_1_alg».proof.Proof.Mask
import Idealize.ShloMosaic.Lib.StableHlo.Run
import Idealize.ShloMosaic.Lib.Pipeline.Value
import Idealize.ShloMosaic.Lib.ValueIdx

noncomputable section

namespace Cert.KernelTarget

open Cert.KernelIdeal Cert.KernelIdeal.Gen Idealize.ShloMosaic Idealize.ShloMosaic.TcCoe Idealize.SL.Sem
  Idealize.ShloMosaic.StableHlo Idealize.ShloMosaic.ValueIdx

/-- A scalar word spread over the positions [128, 1024] reads as that word at every position. -/
theorem posSplat_apply (w : BitVec 32) (i : S128x1024.Idx) :
    broadcastInDim S128x1024 ![] bcast_S_S128x1024 (constant (F := Ideal) S_ .f32 w) i = Ideal.ofBits .f32 w := by
  rw [broadcastInDim_apply _ bcast_S_S128x1024 _ i ix0 (fun a => a.elim0)]
  rfl

/-- The whole target array as the host operations before the region leave it: the selection, at the program's
    mask, between the word of 1 and the word of -1 spread over the positions. -/
theorem target_array (m : (ℓ : Loc nD τ sig) → Buf (Elt Ideal) ℓ) (c : Dev nD) :
    (V m c main_v19 : FVec Ideal S128x1024 .f32)
      = id (select (Cert.Mask.maskOf (m ((c : Thread nD τ).loc main_arg4)))
          (broadcastInDim S128x1024 ![] bcast_S_S128x1024 (constant (F := Ideal) S_ .f32 0x3F800000#32))
          (broadcastInDim S128x1024 ![] bcast_S_S128x1024 (constant (F := Ideal) S_ .f32 0xBF800000#32))) := by
  dsimp only [V, V0]
  simp only [hostOps0, hostOps0_1, hostOps0_2, List.flatten_cons, List.flatten_nil, List.append_nil,
    List.cons_append, List.nil_append]
  after_results_simp
  simp only [TRef.ofBuf, TRef.toBuf, cast_eq]
  rfl

/-- The selection between the two spread words at any mask M is the specification's target at M: read at
    (b, t), each spread word is the word itself. -/
theorem select_words (M : IVec S128x1024 1) :
    id (select M
        (broadcastInDim S128x1024 ![] bcast_S_S128x1024 (constant (F := Ideal) S_ .f32 0x3F800000#32))
        (broadcastInDim S128x1024 ![] bcast_S_S128x1024 (constant (F := Ideal) S_ .f32 0xBF800000#32)))
      = Cert.Spec.target M := by
  funext j
  obtain ⟨b, t, rfl⟩ : ∃ (b : Fin 128) (t : Fin 1024), j = ix2 b t := ⟨j 0, j 1, eq_ix2 j⟩
  show Scalar.select (M (ix2 b t))
      (broadcastInDim S128x1024 ![] bcast_S_S128x1024 (constant (F := Ideal) S_ .f32 0x3F800000#32) (ix2 b t))
      (broadcastInDim S128x1024 ![] bcast_S_S128x1024 (constant (F := Ideal) S_ .f32 0xBF800000#32) (ix2 b t))
    = _
  rw [posSplat_apply, posSplat_apply]
  rfl

/-- The kernel program's target is the specification's target at the program's mask. -/
theorem target_eq (m : (ℓ : Loc nD τ sig) → Buf (Elt Ideal) ℓ) (c : Dev nD) :
    (V m c main_v19 : FVec Ideal S128x1024 .f32)
      = Cert.Spec.target (Cert.Mask.maskOf (m ((c : Thread nD τ).loc main_arg4))) :=
  (target_array m c).trans (select_words _)

end Cert.KernelTarget

end
-- ==== Proof.RefLoss.lean ====
/-
  The reference's loss term is the specification's loss, at the mask the program computes.

  Read at batch row b, the term is the quotient by 2¹⁹ of the zero word plus the sum of the squared deviations
  over every index of [128, 1024, 512] whose first coordinate is b. Those indices are exactly the (b, t, v), one
  for each pair (t, v), so the sum is the double sum over t and v. Each term is the square of the logit minus the
  target spread along the classes, which at (b, t, v) is 1 where the mask bit of (b, t) is set and -1 elsewhere;
  and dividing by 2¹⁹ is multiplying by 2⁻¹⁹. The mask is never opened: it is the program's own sub-term, which
  is `Cert.Mask.maskOf` of the index array by definition.
-/
import proofs.«163707_j17626545783502_1_alg».proof.Proof.Spec
import proofs.«163707_j17626545783502_1_alg».proof.Proof.Mask
import proofs.«163707_j17626545783502_1_alg».proof.Proof.Gen.ReferenceIdeal.Run
import Idealize.ShloMosaic.Lib.ValueIdx
import Idealize.ShloMosaic.Lib.Pipeline.Value
import Idealize.ShloMosaic.PureOps.Reduce
import Idealize.ShloMosaic.PureOps.Ideal.Laws

noncomputable section

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

/-! ## The indices of one batch row -/

/-- Dropping the two inner axes of (b, t, v) leaves (b). -/
theorem drop_ix3 (b : Fin 128) (t : Fin 1024) (v : Fin 512) :
    reducesTo_S128x1024x512_S128_d1_2.drop (ix3 b t v) = ix1 b := by
  funext a
  match a with
  | ⟨0, _⟩ => rfl

/-- An index whose inner axes drop to (b) has first coordinate b, so it is (b, t, v) for its own t and v. -/
theorem eq_ix3_of_drop (i : S128x1024x512.Idx) (b : Fin 128)
    (h : reducesTo_S128x1024x512_S128_d1_2.drop i = ix1 b) : i = ix3 b (i 1) (i 2) := by
  have h0 : i 0 = b :=
    Fin.ext ((reducesTo_S128x1024x512_S128_d1_2.drop_apply_val_of_eq i 0 0).symm.trans
      (congrArg Fin.val (congrFun h 0)))
  funext a
  match a with
  | ⟨0, _⟩ => exact h0
  | ⟨1, _⟩ => rfl
  | ⟨2, _⟩ => rfl

/-- The pairs (t, v) as the indices of batch row b; distinct pairs give distinct indices. -/
def rowEmb (b : Fin 128) : Fin 1024 × Fin 512 ↪ S128x1024x512.Idx :=
  ⟨fun p => ix3 b p.1 p.2, fun p q h => Prod.ext (congrFun h 1) (congrFun h 2)⟩

/-- The indices that drop to (b) are the image of the pairs (t, v). -/
theorem filter_drop (b : Fin 128) :
    Finset.univ.filter (fun i : S128x1024x512.Idx => reducesTo_S128x1024x512_S128_d1_2.drop i = ix1 b)
      = Finset.univ.map (rowEmb b) := by
  ext i
  simp only [Finset.mem_filter, Finset.mem_univ, true_and, Finset.mem_map, rowEmb, Function.Embedding.coeFn_mk]
  exact ⟨fun h => ⟨(i 1, i 2), (eq_ix3_of_drop i b h).symm⟩, fun ⟨p, hp⟩ => hp ▸ drop_ix3 b p.1 p.2⟩

/-! ## The sum over the two inner axes -/

/-- The sum over t and v at batch row b: the initial word plus the double sum of the elements (b, t, v). -/
theorem rowSum_apply (y : (⟨S128x1024x512, .f32⟩ : BufTy).Contents (Elt Ideal)) (w : BitVec 32) (b : Fin 128) :
    Host.reduceAdd (F := Ideal) y (constant (F := Ideal) S_ .f32 w) reducesTo_S128x1024x512_S128_d1_2 h_S_ (ix1 b)
      = Ideal.ofBits .f32 w + ∑ t : Fin 1024, ∑ v : Fin 512, y (ix3 b t v) := by
  simp only [Host.reduceAdd, Ideal.hostReduceAdd_def]
  unfold Ideal.hostReduceAdd
  rw [filter_drop, Finset.sum_map, Fintype.sum_prod_type]
  rfl

/-! ## The constants and the target, read at an index -/

/-- A scalar word spread over the 128 batch rows reads as that word at every row. -/
theorem rowSplat_apply (w : BitVec 32) (j : S128.Idx) :
    broadcastInDim S128 ![] bcast_S_S128 (constant (F := Ideal) S_ .f32 w) j = Ideal.ofBits .f32 w := by
  rw [broadcastInDim_apply _ bcast_S_S128 _ j ix0 (fun a => a.elim0)]
  rfl

/-- A scalar word spread over [128, 1024, 1] reads as that word at every index. -/
theorem posSplat_apply (w : BitVec 32) (i : S128x1024x1.Idx) :
    broadcastInDim S128x1024x1 ![] bcast_S_S128x1024x1 (constant (F := Ideal) S_ .f32 w) i = Ideal.ofBits .f32 w := by
  rw [broadcastInDim_apply _ bcast_S_S128x1024x1 _ i ix0 (fun a => a.elim0)]
  rfl

/-- An array over the positions given a unit class axis reads, at (b, t, 0), the position's element. -/
theorem unitAxis_apply {α : Type} (M : S128x1024.Idx → α) (b : Fin 128) (t : Fin 1024) (u : Fin 1) :
    broadcastInDim S128x1024x1 ![0, 1] bcast_S128x1024_S128x1024x1_0_1 M (ix3 b t u) = M (ix2 b t) :=
  broadcastInDim_apply _ bcast_S128x1024_S128x1024x1_0_1 M (ix3 b t u) (ix2 b t) (fun a => match a with
    | ⟨0, _⟩ => by show b.val = if (128 : Nat) = 1 then 0 else b.val; rw [if_neg (by decide)]
    | ⟨1, _⟩ => by show t.val = if (1024 : Nat) = 1 then 0 else t.val; rw [if_neg (by decide)])

/-- An array with a unit class axis spread along the 512 classes reads, at (b, t, v), its element (b, t, 0). -/
theorem spreadClasses_apply {α : Type} (y : S128x1024x1.Idx → α) (b : Fin 128) (t : Fin 1024) (v : Fin 512) :
    broadcastInDim S128x1024x512 ![0, 1, 2] bcast_S128x1024x1_S128x1024x512_0_1_2 y (ix3 b t v)
      = y (ix3 b t (0 : Fin 1)) :=
  broadcastInDim_apply _ bcast_S128x1024x1_S128x1024x512_0_1_2 y (ix3 b t v) (ix3 b t (0 : Fin 1)) (fun a => match a with
    | ⟨0, _⟩ => by show b.val = if (128 : Nat) = 1 then 0 else b.val; rw [if_neg (by decide)]
    | ⟨1, _⟩ => by show t.val = if (1024 : Nat) = 1 then 0 else t.val; rw [if_neg (by decide)]
    | ⟨2, _⟩ => by show 0 = if (1 : Nat) = 1 then 0 else v.val; rw [if_pos rfl])

/-- The target spread along the classes reads, at (b, t, v), the specification's target of position (b, t). -/
theorem targetSpread_apply (M : IVec S128x1024 1) (b : Fin 128) (t : Fin 1024) (v : Fin 512) :
    broadcastInDim S128x1024x512 ![0, 1, 2] bcast_S128x1024x1_S128x1024x512_0_1_2
        (id (select (broadcastInDim S128x1024x1 ![0, 1] bcast_S128x1024_S128x1024x1_0_1 M)
          (broadcastInDim S128x1024x1 ![] bcast_S_S128x1024x1 (constant (F := Ideal) S_ .f32 0x3F800000#32))
          (broadcastInDim S128x1024x1 ![] bcast_S_S128x1024x1 (constant (F := Ideal) S_ .f32 0xBF800000#32))))
        (ix3 b t v)
      = Cert.Spec.target M (ix2 b t) := by
  rw [spreadClasses_apply]
  show Scalar.select (broadcastInDim S128x1024x1 ![0, 1] bcast_S128x1024_S128x1024x1_0_1 M (ix3 b t (0 : Fin 1)))
      (broadcastInDim S128x1024x1 ![] bcast_S_S128x1024x1 (constant (F := Ideal) S_ .f32 0x3F800000#32) (ix3 b t (0 : Fin 1)))
      (broadcastInDim S128x1024x1 ![] bcast_S_S128x1024x1 (constant (F := Ideal) S_ .f32 0xBF800000#32) (ix3 b t (0 : Fin 1)))
    = _
  rw [unitAxis_apply, posSplat_apply, posSplat_apply]
  rfl

/-! ## The loss -/

/-- The reference's loss is the specification's, at the mask the program computes from the index array. -/
theorem ref_loss (m : (ℓ : Loc nD τ sig) → Buf (Elt Ideal) ℓ) (c : Dev nD) :
    Cert.ReferenceIdeal.Value.res_main_v26 (F := Ideal) m c
      = Cert.Spec.loss (m ((c.tc : Thread nD τ).loc main_arg3))
          (Cert.Spec.target (Cert.Mask.maskOf (m ((c.tc : Thread nD τ).loc main_arg4)))) := by
  funext j
  obtain ⟨b, rfl⟩ : ∃ b : Fin 128, j = ix1 b := ⟨j 0, eq_ix1 j⟩
  unfold Cert.ReferenceIdeal.Value.res_main_v26
  show Ideal.div (Host.reduceAdd (F := Ideal) _ _ reducesTo_S128x1024x512_S128_d1_2 h_S_ (ix1 b))
      (broadcastInDim S128 ![] bcast_S_S128 (constant (F := Ideal) S_ .f32 0x49000000#32) (ix1 b)) = _
  rw [rowSplat_apply, Cert.Spec.div_two19, rowSum_apply, Cert.Spec.zero32, zero_add]
  show _ = Cert.Spec.rowTotal _ _ b * _
  unfold Cert.Spec.rowTotal
  refine congrArg (fun s => s * _) (Finset.sum_congr rfl fun t _ => Finset.sum_congr rfl fun v _ => ?_)
  rw [mulf_apply, subf_apply, targetSpread_apply]
  rfl

end Cert.RefValue

end
-- ==== Proof.RefEntropy.lean ====
/-
  The reference's entropy term is the specification's entropy.

  Read at position (b, t), the term is the negation of the zero word plus the sum over the 512 classes v of
  the selected summand: P b t v · log (P b t v where P b t v > 0, else 1) where P b t v > 0, and the zero word
  elsewhere. A scalar word spread over the whole array reads as that word at every index, so the summand is
  `plogp (P b t v)` word for word; and the zero word denotes 0.
-/
import proofs.«163707_j17626545783502_1_alg».proof.Proof.Spec
import proofs.«163707_j17626545783502_1_alg».proof.Proof.Gen.ReferenceIdeal.Run
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Idealize.ShloMosaic Idealize.ShloMosaic.TcCoe
  Idealize.ShloMosaic.StableHlo Idealize.ShloMosaic.ValueIdx

/-- A scalar word spread over [128, 1024, 512] reads as that word at every index. -/
theorem splat_apply (w : BitVec 32) (i : S128x1024x512.Idx) :
    broadcastInDim S128x1024x512 ![] bcast_S_S128x1024x512 (constant (F := Ideal) S_ .f32 w) i
      = Ideal.ofBits .f32 w := by
  rw [broadcastInDim_apply _ bcast_S_S128x1024x512 _ i ix0 (fun a => a.elim0)]
  rfl

/-- The host's logarithm of an array, read at an index. -/
theorem hostLog_apply (x : FVec Ideal S128x1024x512 .f32) (i : S128x1024x512.Idx) :
    Host.log x i = Ideal.log (x i) := rfl

/-- The sum over the classes at position (b, t): the initial word plus the sum of the 512 elements (b, t, k). -/
theorem classSum_apply (y : (⟨S128x1024x512, .f32⟩ : BufTy).Contents (Elt Ideal)) (w : BitVec 32)
    (b : Fin 128) (t : Fin 1024) :
    Host.reduceAdd (F := Ideal) y (constant (F := Ideal) S_ .f32 w) reducesTo_S128x1024x512_S128x1024_d2 h_S_ (ix2 b t)
      = Ideal.ofBits .f32 w + ∑ k : Fin 512, y (ix3 b t k) := by
  simp only [Host.reduceAdd, Ideal.hostReduceAdd_def]
  rw [Ideal.hostReduceAdd_single reducesTo_S128x1024x512_S128x1024_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The summand array, read at an index, is `plogp` of the prior's element there. -/
theorem summand_apply (P : (⟨S128x1024x512, .f32⟩ : BufTy).Contents (Elt Ideal)) (i : S128x1024x512.Idx) :
    (select (cmpf .ogt P (broadcastInDim S128x1024x512 ![] bcast_S_S128x1024x512 (constant (F := Ideal) S_ .f32 0x00000000#32))) (mulf P (Host.log (F := Ideal) (select (cmpf .ogt P (broadcastInDim S128x1024x512 ![] bcast_S_S128x1024x512 (constant (F := Ideal) S_ .f32 0x00000000#32))) P (broadcastInDim S128x1024x512 ![] bcast_S_S128x1024x512 (id (constant (F := Ideal) S_ .f32 0x3F800000#32)))))) (broadcastInDim S128x1024x512 ![] bcast_S_S128x1024x512 (id (constant (F := Ideal) S_ .f32 0x00000000#32)))) i
      = Cert.Spec.plogp (P i) := by
  simp only [select_apply, cmpf_apply, mulf_apply, hostLog_apply, id_eq, splat_apply, Ideal.cmpf_def]
  rfl

/-- The reference's entropy is the specification's. -/
theorem ref_entropy (P : (⟨S128x1024x512, .f32⟩ : BufTy).Contents (Elt Ideal)) :
    Host.negf (F := Ideal) (Host.reduceAdd (F := Ideal) (select (cmpf .ogt P (broadcastInDim S128x1024x512 ![] bcast_S_S128x1024x512 (constant (F := Ideal) S_ .f32 0x00000000#32))) (mulf P (Host.log (F := Ideal) (select (cmpf .ogt P (broadcastInDim S128x1024x512 ![] bcast_S_S128x1024x512 (constant (F := Ideal) S_ .f32 0x00000000#32))) P (broadcastInDim S128x1024x512 ![] bcast_S_S128x1024x512 (id (constant (F := Ideal) S_ .f32 0x3F800000#32)))))) (broadcastInDim S128x1024x512 ![] bcast_S_S128x1024x512 (id (constant (F := Ideal) S_ .f32 0x00000000#32)))) (constant (F := Ideal) S_ .f32 0x00000000#32) reducesTo_S128x1024x512_S128x1024_d2 h_S_)
      = Cert.Spec.entropy P := by
  funext j
  obtain ⟨b, t, rfl⟩ : ∃ (b : Fin 128) (t : Fin 1024), j = ix2 b t := ⟨j 0, j 1, eq_ix2 j⟩
  show FloatOps.hostNegf (Host.reduceAdd (F := Ideal) _ _ reducesTo_S128x1024x512_S128x1024_d2 h_S_ (ix2 b t)) = _
  rw [classSum_apply, Ideal.hostNegf_def, Ideal.negf_def, Cert.Spec.zero32, zero_add]
  show _ = -(∑ v : Fin 512, Cert.Spec.plogp (P (ix3 b t v)))
  exact congrArg (fun s => -s) (Finset.sum_congr rfl fun k _ => summand_apply P (ix3 b t k))

end Cert.RefValue

end
-- ==== Proof.lean ====
/-
  The kernel computes, per batch row b, the mean over the 1024 positions t and 512 classes v of (logit − target)², the
  target of a position being 1 where an integer mask (computed on the host from the index array) is set and −1
  elsewhere, and per position the categorical entropy −∑ᵥ p·log p of the prior (0·log 0 read as 0). Over the extended
  reals it is the jnp reference:

  * both programs build the mask by the same host operations (`Cert.Mask.maskOf`);
  * the kernel sums the squared deviations lane by lane, position by position, tile by tile (eight tiles of 128
    positions, the running total carried in a scratch row across the grid's inner axis) and multiplies by 2⁻¹⁹; the
    reference sums over both axes at once and divides by 2¹⁹ = 1024 · 512. Sums of extended reals commute and
    associate, and dividing by 2¹⁹ is multiplying by 2⁻¹⁹ at every extended real, so no finiteness is used;
  * the entropy is the same expression on both sides, the kernel's `0 − s` being the reference's `−s`.

  Spec.lean states the two results; KernelValue.lean reads the kernel's run (Pieces, PerPoint, Payload below it),
  Target.lean the target array the kernel's host part builds, RefLoss.lean and RefEntropy.lean the reference's run.
  The ideal pass rewrote nothing, so `preserves` is trivial; the frames are the generated ones.
-/
import proofs.«163707_j17626545783502_1_alg».proof.Defs
import proofs.«163707_j17626545783502_1_alg».proof.Proof.Gen.Kernel
import proofs.«163707_j17626545783502_1_alg».proof.Proof.Gen.Kernel.Skeleton
import proofs.«163707_j17626545783502_1_alg».proof.Proof.Gen.Kernel.Launch
import proofs.«163707_j17626545783502_1_alg».proof.Proof.Gen.Kernel.Points
import proofs.«163707_j17626545783502_1_alg».proof.Proof.Gen.Kernel.Frame
import proofs.«163707_j17626545783502_1_alg».proof.Proof.Gen.KernelIdeal
import proofs.«163707_j17626545783502_1_alg».proof.Proof.Gen.KernelIdeal.Skeleton
import proofs.«163707_j17626545783502_1_alg».proof.Proof.Gen.KernelIdeal.Launch
import proofs.«163707_j17626545783502_1_alg».proof.Proof.Gen.KernelIdeal.Points
import proofs.«163707_j17626545783502_1_alg».proof.Proof.Gen.KernelIdeal.Frame
import proofs.«163707_j17626545783502_1_alg».proof.Proof.Gen.ReferenceIdeal
import proofs.«163707_j17626545783502_1_alg».proof.Proof.Gen.Pre_finite_inputs
import proofs.«163707_j17626545783502_1_alg».proof.Proof.Gen.ReferenceIdeal.Run
import proofs.«163707_j17626545783502_1_alg».proof.Proof.KernelValue
import proofs.«163707_j17626545783502_1_alg».proof.Proof.Target
import proofs.«163707_j17626545783502_1_alg».proof.Proof.RefLoss
import proofs.«163707_j17626545783502_1_alg».proof.Proof.RefEntropy
import Idealize.ShloMosaic.Adequacy
import Idealize.ShloMosaic.Init

noncomputable section

namespace Cert.Proof

open Idealize.ShloMosaic Idealize.SL.Sem

/-- The three frames: the two kernels' are generated; the reference's is its generated run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the loss and the entropy of the specification, at the mask both compute from the index
    array: the kernel's arrays are the arguments as launched (no host operation writes them) and its target array is
    the specification's target; the reference's two terms are the specification's, of arguments that agree. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg3))
      (Cert.Spec.target (Cert.Mask.maskOf (m ((c.tc : Thread Cert.KernelIdeal.nD Cert.KernelIdeal.τ).loc Cert.KernelIdeal.main_arg4)))),
    fun c => Cert.Spec.entropy (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Result.run m ρ)
    obtain ⟨h1, h2, h3⟩ := h c
    exact ⟨h1.trans (congrArg₂ Cert.Spec.loss (Cert.KernelIdeal.Gen.V_main_arg3 m c) (Cert.KernelTarget.target_eq m c)),
      h2.trans (congrArg Cert.Spec.entropy (Cert.KernelIdeal.Gen.V_main_arg2 m c)), h3⟩
  · refine (θ_run Cert.ReferenceIdeal.defs _ _).mono (fun _ h c => ?_) (Cert.ReferenceIdeal.Value.run (F := Ideal) m' ρ')
    obtain ⟨h1, h2, h3⟩ := h c
    obtain ⟨a0, a1, a2, a3, a4⟩ := hagree c
    refine ⟨h1.trans ((Cert.RefValue.ref_loss m' c).trans ?_), h2.trans ((Cert.RefValue.ref_entropy _).trans ?_), h3⟩
    · rw [a3, a4]
    · rw [a2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
